-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1250000x1 : Shape := ⟨2, ![1250000, 1]⟩
abbrev S1250000 : Shape := ⟨1, ![1250000]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000x1 : S_.BroadcastsInDim S1250000x1 (![] : Fin 0 → Fin S1250000x1.rank)
  reducesTo_S1250000x1_S_d0_1 : S1250000x1.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : FVec F S1250000x1 .f32) (main_arg2 : IVec S1250000 32) (main_arg3 : IVec S1250000 32) (main_arg4 : FVec F S128x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1250000x1 .f32 := Host.absf main_arg1
  let main_cst_0 : FVec F S_ .f32 := constant S_ .f32 0x7F800000#32
  let main_v5 : FVec F S1250000x1 .f32 := broadcastInDim S1250000x1 ![] bcast_S_S1250000x1 main_cst_0
  let main_v6 : IVec S1250000x1 1 := cmpf .olt main_v4 main_v5
  let main_c_1 : IVec S_ 1 := constantI S_ 1 1#1
  let main_v7 : IVec S_ 1 := (fun x v => Host.reduce IntOp.andi x v reducesTo_S1250000x1_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S1250000x1 : Shape := ⟨2, ![1250000, 1]⟩
abbrev S1250000 : Shape := ⟨1, ![1250000]⟩
abbrev S128x64 : Shape := ⟨2, ![128, 64]⟩
abbrev S64 : Shape := ⟨1, ![64]⟩
abbrev S_ : Shape := ⟨0, ![]⟩
abbrev S1250000x64 : Shape := ⟨2, ![1250000, 64]⟩
abbrev S64x64 : Shape := ⟨2, ![64, 64]⟩
abbrev S1x64 : Shape := ⟨2, ![1, 64]⟩
abbrev S5000x64 : Shape := ⟨2, ![5000, 64]⟩

abbrev nBuf : Space → Nat
  | .hbm => 23
  | .vmem => 9
  | .smem => 0
  | _ => 0

abbrev bufTy : (tb : Table) → Fin (tcTables nBuf tb) → BufTy
  | .hbm, ⟨0, _⟩ => ⟨S100000x64, .f32⟩
  | .hbm, ⟨1, _⟩ => ⟨S1250000x1, .f32⟩
  | .hbm, ⟨2, _⟩ => ⟨S1250000, .i32⟩
  | .hbm, ⟨3, _⟩ => ⟨S1250000, .i32⟩
  | .hbm, ⟨4, _⟩ => ⟨S128x64, .f32⟩
  | .hbm, ⟨5, _⟩ => ⟨S64, .f32⟩
  | .hbm, ⟨6, _⟩ => ⟨S_, .i32⟩
  | .hbm, ⟨7, _⟩ => ⟨S1250000, .i32⟩
  | .hbm, ⟨8, _⟩ => ⟨S1250000, .i1⟩
  | .hbm, ⟨9, _⟩ => ⟨S_, .i32⟩
  | .hbm, ⟨10, _⟩ => ⟨S1250000, .i32⟩
  | .hbm, ⟨11, _⟩ => ⟨S1250000, .i32⟩
  | .hbm, ⟨12, _⟩ => ⟨S1250000, .i32⟩
  | .hbm, ⟨13, _⟩ => ⟨S1250000x1, .i32⟩
  | .hbm, ⟨14, _⟩ => ⟨S1250000x64, .f32⟩
  | .hbm, ⟨15, _⟩ => ⟨S_, .f32⟩
  | .hbm, ⟨16, _⟩ => ⟨S100000x64, .f32⟩
  | .hbm, ⟨17, _⟩ => ⟨S1250000x1, .i32⟩
  | .hbm, ⟨18, _⟩ => ⟨S100000x64, .f32⟩
  | .hbm, ⟨19, _⟩ => ⟨S64x64, .f32⟩
  | .hbm, ⟨20, _⟩ => ⟨S64x64, .f32⟩
  | .hbm, ⟨21, _⟩ => ⟨S1x64, .f32⟩
  | .hbm, ⟨22, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  slices_S128x64_S64x64_0_0 : S128x64.Slices ![0, 0] S64x64
  slices_S128x64_S64x64_64_0 : S128x64.Slices ![64, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S1250000x1 : Shape := ⟨2, ![1250000, 1]⟩
abbrev S1250000 : Shape := ⟨1, ![1250000]⟩
abbrev S128x64 : Shape := ⟨2, ![128, 64]⟩
abbrev S64 : Shape := ⟨1, ![64]⟩
abbrev S_ : Shape := ⟨0, ![]⟩
abbrev S1250000x64 : Shape := ⟨2, ![1250000, 64]⟩
abbrev S100000x128 : Shape := ⟨2, ![100000, 128]⟩
abbrev S1x64 : Shape := ⟨2, ![1, 64]⟩

abbrev nBuf : Space → Nat
  | .hbm => 24
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1250000x1, .f32⟩
  | .hbm, ⟨2, _⟩ => ⟨S1250000, .i32⟩
  | .hbm, ⟨3, _⟩ => ⟨S1250000, .i32⟩
  | .hbm, ⟨4, _⟩ => ⟨S128x64, .f32⟩
  | .hbm, ⟨5, _⟩ => ⟨S64, .f32⟩
  | .hbm, ⟨6, _⟩ => ⟨S_, .i32⟩
  | .hbm, ⟨7, _⟩ => ⟨S1250000, .i32⟩
  | .hbm, ⟨8, _⟩ => ⟨S1250000, .i1⟩
  | .hbm, ⟨9, _⟩ => ⟨S_, .i32⟩
  | .hbm, ⟨10, _⟩ => ⟨S1250000, .i32⟩
  | .hbm, ⟨11, _⟩ => ⟨S1250000, .i32⟩
  | .hbm, ⟨12, _⟩ => ⟨S1250000, .i32⟩
  | .hbm, ⟨13, _⟩ => ⟨S1250000x1, .i32⟩
  | .hbm, ⟨14, _⟩ => ⟨S1250000x64, .f32⟩
  | .hbm, ⟨15, _⟩ => ⟨S_, .f32⟩
  | .hbm, ⟨16, _⟩ => ⟨S100000x64, .f32⟩
  | .hbm, ⟨17, _⟩ => ⟨S1250000x1, .i32⟩
  | .hbm, ⟨18, _⟩ => ⟨S100000x64, .f32⟩
  | .hbm, ⟨19, _⟩ => ⟨S100000x128, .f32⟩
  | .hbm, ⟨20, _⟩ => ⟨S100000x64, .f32⟩
  | .hbm, ⟨21, _⟩ => ⟨S1x64, .f32⟩
  | .hbm, ⟨22, _⟩ => ⟨S100000x64, .f32⟩
  | .hbm, ⟨23, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x128_S128x64_S100000x64_1_0_0_1_n_n_wf : DotDims.WF S100000x128 S128x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LayerSpec.lean ====
/-
  The layer's value, and the one law of sums the certificate rests on.

  A node's output row is its own feature row times the upper half of the weight matrix, plus its neighbourhood sum
  times the lower half, plus the bias. Laying the two rows side by side into one row of 128 entries and multiplying by
  the whole weight matrix gives the same number, because a sum of 128 terms is the sum of its first 64 and of its last
  64 terms. That holds in every commutative monoid, so it holds on the extended reals with the infinities included:
  nothing here asks an entry to be finite.
-/
import Mathlib.Algebra.BigOperators.Fin
import Idealize.ShloMosaic.PureOps.Ideal.Laws
import Idealize.ShloMosaic.Lib.ValueIdx

noncomputable section

namespace Cert.LayerSpec

open Idealize.ShloMosaic Idealize.ShloMosaic.ValueIdx

/-- Row `k` of the upper half of the weight matrix: the rows that meet a node's own features. -/
abbrev upper (k : Fin 64) : Fin 128 := Fin.castAdd 64 k
/-- Row `k` of the lower half: the rows that meet the neighbourhood sum. -/
abbrev lower (k : Fin 64) : Fin 128 := Fin.natAdd 64 k

theorem upper_val (k : Fin 64) : (upper k).val = k.val := rfl
theorem lower_val (k : Fin 64) : (lower k).val = 64 + k.val := rfl

/-- The layer at node `p`, output feature `q`:
    Σ_k x(p, k) · W(k, q)  +  Σ_k a(p, k) · W(64 + k, q)  +  b(q),
    with `x` the node features and `a` the neighbourhood sums. -/
def layer (x a : (⟨2, ![100000, 64]⟩ : Shape).Idx → EReal) (W : (⟨2, ![128, 64]⟩ : Shape).Idx → EReal)
    (b : (⟨1, ![64]⟩ : Shape).Idx → EReal) : (⟨2, ![100000, 64]⟩ : Shape).Idx → EReal :=
  fun j => (∑ k : Fin 64, x (ix2 (j 0) k) * W (ix2 (upper k) (j 1))
      + ∑ k : Fin 64, a (ix2 (j 0) k) * W (ix2 (lower k) (j 1))) + b (ix1 (j 1))

/-- A sum over 128 terms is the sum over the first 64 plus the sum over the last 64. -/
theorem sum_halves {M : Type} [AddCommMonoid M] (f : Fin 128 → M) :
    ∑ k : Fin 128, f k = ∑ k : Fin 64, f (upper k) + ∑ k : Fin 64, f (lower k) :=
  Fin.sum_univ_add (a := 64) (b := 64) f

/-- The product of the joined row with the whole weight matrix splits into the two half products, whenever the joined
    row `cat` holds `x` on its first 64 columns and `a` on its last 64. -/
theorem joined_product (x a : Fin 64 → EReal) (cat : Fin 128 → EReal) (w : Fin 128 → EReal)
    (hx : ∀ k : Fin 64, cat (upper k) = x k) (ha : ∀ k : Fin 64, cat (lower k) = a k) :
    ∑ k : Fin 128, cat k * w k = ∑ k : Fin 64, x k * w (upper k) + ∑ k : Fin 64, a k * w (lower k) := by
  rw [sum_halves]
  exact congrArg₂ (· + ·) (Finset.sum_congr rfl fun k _ => by rw [hx k])
    (Finset.sum_congr rfl fun k _ => by rw [ha k])

end Cert.LayerSpec

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.KernelLayer.lean ====
/-
  The kernel computes the layer.

  The kernel walks the 100000 nodes in 20 blocks of 5000 rows. At block `t` it holds rows 5000·t … 5000·t + 4999 of the
  node features and of the neighbourhood sums, the upper and the lower half of the weight matrix (rows 0 … 63 and
  64 … 127, cut out before the call) and the bias as one row. Its body forms, for each row `p` of the block and each
  output feature `q`,
      Σ_k x(p, k) · W₁(k, q)  +  Σ_k a(p, k) · W₂(k, q)  +  b(q):
  each matrix unit product starts from a zero accumulator, so it is the plain sum over the contracted axis, and the
  narrowing of the operands to a shorter float format is the identity on extended reals. That is the layer's value at
  node 5000·t + p. The 20 blocks tile the array (node `r` lies in block r / 5000), so after the run the whole result
  array is the layer of the arguments.

  The neighbourhood sums reach the kernel from the operations before the call (a gather of source rows, scatter-added
  into destination rows); they are carried as one unopened stage `neighbourSum`.
-/
import proofs.«180983_j76192719831672_1_alg».proof.Proof.Gen.KernelIdeal.Value
import proofs.«180983_j76192719831672_1_alg».proof.Proof.LayerSpec
import proofs.«180983_j76192719831672_1_alg».proof.Proof.LibPlainDot
import Idealize.ShloMosaic.Lib.StableHlo.Run
import Idealize.ShloMosaic.PureOps.Ideal.Laws

noncomputable section

namespace Cert.KernelIdeal.KernelLayer

open Cert.KernelIdeal Cert.KernelIdeal.Gen Idealize.ShloMosaic Idealize.ShloMosaic.TcCoe Idealize.SL.Sem
open Idealize.ShloMosaic.StableHlo Idealize.ShloMosaic.ValueIdx Cert.LayerSpec
open Idealize.ShloMosaic.Pipeline (Dat)

/-! ## The body's arithmetic at one entry of a block -/

/-- The body's result at row `p`, feature `q` of a block: the two half products and the bias. -/
theorem body_apply (x a : Vec Ideal S5000x64 .f32) (w₁ w₂ : Vec Ideal S64x64 .f32) (b : Vec Ideal S1x64 .f32)
    (p : Fin 5000) (q : Fin 64) :
    k0_pay1 (F := Ideal) x a w₁ w₂ b (ix2 p q)
      = (∑ k : Fin 64, (x (ix2 p k) : EReal) * (w₁ (ix2 k q) : EReal)
          + ∑ k : Fin 64, (a (ix2 p k) : EReal) * (w₂ (ix2 k q) : EReal)) + (b (ix2 (0 : Fin 1) q) : EReal) := by
  unfold k0_pay1
  simp only [shapeCast_self]
  rw [addf_apply, addf_apply]
  refine congrArg₂ (· + ·) (congrArg₂ (· + ·) ?_ ?_) ?_
  · exact Cert.LibPlainDot.matmul_plain_zero (M := 5000) (K := 64) (N := 64) none _ _ (ix2 p q)
  · exact Cert.LibPlainDot.matmul_plain_zero (M := 5000) (K := 64) (N := 64) none _ _ (ix2 p q)
  · exact broadcastTo_apply b broadcasts_S1x64_S5000x64 (ix2 p q) (ix2 (0 : Fin 1) q) (fun c => by
      match c with
      | ⟨0, _⟩ => show (0 : Nat) = if (1 : Nat) = 1 then 0 else _; rw [if_pos rfl]
      | ⟨1, _⟩ => show q.val = if (64 : Nat) = 1 then 0 else q.val; rw [if_neg (by decide)])

/-- A block's value is the layer's at the block's nodes, when the block's rows are rows `ρ p` of the feature and
    neighbourhood-sum arrays, its two weight tiles the upper and the lower half of the weights and its bias row the bias. -/
theorem block_is_layer (x a : Vec Ideal S5000x64 .f32) (w₁ w₂ : Vec Ideal S64x64 .f32) (b : Vec Ideal S1x64 .f32)
    (X A : (⟨2, ![100000, 64]⟩ : Shape).Idx → EReal) (W : (⟨2, ![128, 64]⟩ : Shape).Idx → EReal)
    (B : (⟨1, ![64]⟩ : Shape).Idx → EReal) (ρ : Fin 5000 → Fin 100000)
    (hx : ∀ (p : Fin 5000) (k : Fin 64), (x (ix2 p k) : EReal) = X (ix2 (ρ p) k))
    (ha : ∀ (p : Fin 5000) (k : Fin 64), (a (ix2 p k) : EReal) = A (ix2 (ρ p) k))
    (h₁ : ∀ (k q : Fin 64), (w₁ (ix2 k q) : EReal) = W (ix2 (upper k) q))
    (h₂ : ∀ (k q : Fin 64), (w₂ (ix2 k q) : EReal) = W (ix2 (lower k) q))
    (hb : ∀ q : Fin 64, (b (ix2 (0 : Fin 1) q) : EReal) = B (ix1 q))
    (p : Fin 5000) (q : Fin 64) :
    k0_pay1 (F := Ideal) x a w₁ w₂ b (ix2 p q) = layer X A W B (ix2 (ρ p) q) := by
  rw [body_apply]
  unfold layer
  refine congrArg₂ (· + ·) (congrArg₂ (· + ·) ?_ ?_) (hb q)
  · exact Finset.sum_congr rfl fun k _ => by rw [hx p k, h₁ k q]
  · exact Finset.sum_congr rfl fun k _ => by rw [ha p k, h₂ k q]

/-! ## What the region finds in the arrays the operations before it wrote -/

variable (m : (ℓ : Loc nD τ sig) → Buf (Elt Ideal) ℓ) (ρ : Dev nD → PrngReg)

/-- Each node's neighbourhood sum: the feature rows of the edges' sources (a negative source index counted from the
    end), added into the rows of the edges' destinations, starting from zero. -/
def neighbourSum (x0 : (⟨S100000x64, .f32⟩ : BufTy).Contents (Elt Ideal)) (x2 x3 : (⟨S1250000, .i32⟩ : BufTy).Contents (Elt Ideal)) :
    (⟨S100000x64, .f32⟩ : BufTy).Contents (Elt Ideal) :=
  Host.scatterAdd scatter_S100000x64_S1250000x1_S1250000x64_1_0_0_1
    (broadcastInDim S100000x64 ![] bcast_S_S100000x64 (constant (F := Ideal) S_ .f32 0x00000000#32))
    (broadcastInDim S1250000x1 ![0] bcast_S1250000_S1250000x1_0 x3)
    (Host.gather gather_S100000x64_S1250000x1_S1250000x64_1_0_n_n_0_1_164 x0
      (broadcastInDim S1250000x1 ![0] bcast_S1250000_S1250000x1_0
        (select (cmpi .slt x2 (broadcastInDim S1250000 ![] bcast_S_S1250000 (constantI S_ 32 0#32)))
          (addi x2 (broadcastInDim S1250000 ![] bcast_S_S1250000 (constantI S_ 32 100000#32))) x2)))

/-- The second operand of the call holds the neighbourhood sums of the arguments. -/
theorem found_sums (c : Dev nD) :
    (V m c main_v9 : S100000x64.Idx → EReal)
      = neighbourSum (m ((c : Thread nD τ).loc main_arg0)) (m ((c : Thread nD τ).loc main_arg2)) (m ((c : Thread nD τ).loc main_arg3)) := by
  dsimp only [Gen.V, Gen.hostOps0]
  after_results <;> rfl

/-- The third operand is rows 0 … 63 of the weights. -/
theorem found_upper (c : Dev nD) (k q : Fin 64) :
    (V m c main_v10 : S64x64.Idx → EReal) (ix2 k q) = (m ((c : Thread nD τ).loc main_arg4) : S128x64.Idx → EReal) (ix2 (upper k) q) := by
  have e : (V m c main_v10 : S64x64.Idx → EReal)
      = extractStridedSlice S64x64 ![0, 0] (m ((c : Thread nD τ).loc main_arg4)) slices_S128x64_S64x64_0_0 := by
    dsimp only [Gen.V, Gen.hostOps0]
    after_results <;> rfl
  rw [e]
  exact extractStridedSlice_apply _ _ slices_S128x64_S64x64_0_0 (ix2 k q) (ix2 (upper k) q) (fun d => by
    match d with
    | ⟨0, _⟩ => show k.val = 0 + k.val; omega
    | ⟨1, _⟩ => show q.val = 0 + q.val; omega)

/-- The fourth operand is rows 64 … 127 of the weights. -/
theorem found_lower (c : Dev nD) (k q : Fin 64) :
    (V m c main_v11 : S64x64.Idx → EReal) (ix2 k q) = (m ((c : Thread nD τ).loc main_arg4) : S128x64.Idx → EReal) (ix2 (lower k) q) := by
  have e : (V m c main_v11 : S64x64.Idx → EReal)
      = extractStridedSlice S64x64 ![64, 0] (m ((c : Thread nD τ).loc main_arg4)) slices_S128x64_S64x64_64_0 := by
    dsimp only [Gen.V, Gen.hostOps0]
    after_results <;> rfl
  rw [e]
  exact extractStridedSlice_apply _ _ slices_S128x64_S64x64_64_0 (ix2 k q) (ix2 (lower k) q) (fun d => by
    match d with
    | ⟨0, _⟩ => show 64 + k.val = 64 + k.val; rfl
    | ⟨1, _⟩ => show q.val = 0 + q.val; omega)

/-- The fifth operand is the bias recast as one row. -/
theorem found_bias (c : Dev nD) (q : Fin 64) :
    (V m c main_v12 : S1x64.Idx → EReal) (ix2 (0 : Fin 1) q) = (m ((c : Thread nD τ).loc main_arg5) : S64.Idx → EReal) (ix1 q) := by
  have e : (V m c main_v12 : S1x64.Idx → EReal)
      = shapeCast S1x64 (m ((c : Thread nD τ).loc main_arg5)) shapeCasts_S64_S1x64 := by
    dsimp only [Gen.V, Gen.hostOps0]
    after_results <;> rfl
  rw [e]
  exact shapeCast_apply _ shapeCasts_S64_S1x64 (ix2 (0 : Fin 1) q) (ix1 q) (by
    rw [Shape.rowMajor_val_one, Shape.rowMajor_val_two]
    show q.val = (0 : Nat) * 64 + q.val
    omega)

end Cert.KernelIdeal.KernelLayer

end
-- ==== Proof.KernelRun.lean ====
/-
  The kernel's run: the result array is the layer of the arguments.

  Point `t` of the grid (0 ≤ t < 20) works on block `t` of the node features, of the neighbourhood sums and of the
  result (rows 5000·t … 5000·t + 4999, all 64 columns) and on block 0 of the two weight tiles and of the bias row. So
  row `p` of what it writes back is the layer at node 5000·t + p. Node `r` lies in the block of point r / 5000, hence
  the twenty blocks cover the result array and it ends holding the layer at every node.
-/
import proofs.«180983_j76192719831672_1_alg».proof.Proof.KernelLayer

noncomputable section

namespace Cert.KernelIdeal.KernelRun

open Cert.KernelIdeal Cert.KernelIdeal.Gen Idealize.ShloMosaic Idealize.ShloMosaic.TcCoe Idealize.SL.Sem
open Idealize.ShloMosaic.ValueIdx Cert.LayerSpec Cert.KernelIdeal.KernelLayer
open Idealize.ShloMosaic.Pipeline (Dat)

variable (m : (ℓ : Loc nD τ sig) → Buf (Elt Ideal) ℓ) (ρ : Dev nD → PrngReg)

/-- Every access of the body starts at the corner of its buffer. -/
theorem corner : (![0, 0] : Fin 2 → Nat) = fun _ => 0 := funext fun a => by fin_cases a <;> rfl

/-- The block each window holds at point `t`, decided over the twenty points: block `t` of the node features, the
    neighbourhood sums and the result along the rows; block 0 of everything else. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The node that row `p` of block `t` belongs to. -/
def node (t : Fin cfg0.N) (p : Fin 5000) : Fin 100000 :=
  ⟨t.val * 5000 + p.val, by have hN : cfg0.N = 20 := N_0; have := t.isLt; have := p.isLt; omega⟩

theorem node_val (t : Fin cfg0.N) (p : Fin 5000) : (node t p).val = t.val * 5000 + p.val := rfl

/-- Row `p` of point `t`'s block of the second operand is row 5000·t + p of that operand's array, whatever the array
    holds. (Stated for arbitrary contents: the neighbourhood sums are never opened.) -/
theorem sums_block_row (Y : S100000x64.Idx → EReal) (t : Fin cfg0.N) (p : Fin 5000) (k : Fin 64) :
    ((cfg0.win 1).blk t).view.read (Elt Ideal) Y (ix2 p k) = Y (ix2 (node t p) k) := by
  obtain ⟨-, -, e10, e11, -⟩ := block_indices t
  show Y (((cfg0.win 1).blk t).view.emb (ix2 p k)) = _
  refine congrArg Y (funext fun a => Fin.ext ?_)
  match a with
  | ⟨0, _⟩ => show win0_1.index t (0 : Fin 2) * 5000 + 1 * p.val = t.val * 5000 + p.val; rw [e10]; omega
  | ⟨1, _⟩ => show win0_1.index t (1 : Fin 2) * 64 + 1 * k.val = k.val; rw [e11]; omega

/-- The second operand's array is the buffer the scatter-add wrote. -/
theorem sums_array : Pipeline.arrRef spec0 1 = main_v9 := rfl

/-- So the second operand's array holds the neighbourhood sums of the arguments. -/
theorem found_sums_operand (c : Dev nD) :
    (V m c (Pipeline.arrRef spec0 1) : S100000x64.Idx → EReal)
      = neighbourSum (m ((c : Thread nD τ).loc main_arg0)) (m ((c : Thread nD τ).loc main_arg2)) (m ((c : Thread nD τ).loc main_arg3)) := by
  dsimp only [sums_array]
  exact found_sums m c

/-- What point `t` writes back is block `t` of the layer of the arrays the region finds. -/
theorem flushed_is_layer (c : Dev nD) (t : Fin cfg0.N) :
    (dats m 0 c).flushed 5 t = ((cfg0.win 5).blk t).view.read (Elt Ideal)
      (layer (V m c main_arg0) (V m c (Pipeline.arrRef spec0 1)) (m ((c : Thread nD τ).loc main_arg4)) (m ((c : Thread nD τ).loc main_arg5))) := by
  rw [Value.flushed5]
  unfold out0_5
  rw [View.canon_unit_zero corner]
  simp only [View.ld_unit_zero (S := S5000x64) corner, View.ld_unit_zero (S := S64x64) corner, View.ld_unit_zero (S := S1x64) corner]
  obtain ⟨e00, e01, e10, e11, e20, e21, e30, e31, e40, e41, e50, e51⟩ := block_indices t
  funext y
  obtain ⟨p, q, rfl⟩ : ∃ (p : Fin 5000) (q : Fin 64), y = ix2 p q := ⟨y 0, y 1, eq_ix2 y⟩
  show k0_pay1 (F := Ideal) (iblk m c 0 t) (iblk m c 1 t) (iblk m c 2 t) (iblk m c 3 t) (iblk m c 4 t) (ix2 p q)
      = layer (V m c main_arg0) (V m c (Pipeline.arrRef spec0 1)) (m ((c : Thread nD τ).loc main_arg4)) (m ((c : Thread nD τ).loc main_arg5)) (((cfg0.win 5).blk t).view.emb (ix2 p q))
  refine (block_is_layer (iblk m c 0 t) (iblk m c 1 t) (iblk m c 2 t) (iblk m c 3 t) (iblk m c 4 t)
    (V m c main_arg0) (V m c (Pipeline.arrRef spec0 1)) (m ((c : Thread nD τ).loc main_arg4)) (m ((c : Thread nD τ).loc main_arg5)) (node t) ?_ ?_ ?_ ?_ ?_ p q).trans ?_
  · intro p k
    show (V m c main_arg0 : S100000x64.Idx → EReal) (((cfg0.win 0).blk t).view.emb (ix2 p k)) = _
    refine congrArg _ (funext fun a => Fin.ext ?_)
    match a with
    | ⟨0, _⟩ => show win0_0.index t (0 : Fin 2) * 5000 + 1 * p.val = t.val * 5000 + p.val; rw [e00]; omega
    | ⟨1, _⟩ => show win0_0.index t (1 : Fin 2) * 64 + 1 * k.val = k.val; rw [e01]; omega
  · intro p k
    exact sums_block_row (V m c (Pipeline.arrRef spec0 1)) t p k
  · intro k q
    refine Eq.trans ?_ (found_upper m c k q)
    show (V m c main_v10 : S64x64.Idx → EReal) (((cfg0.win 2).blk t).view.emb (ix2 k q)) = _
    refine congrArg _ (funext fun a => Fin.ext ?_)
    match a with
    | ⟨0, _⟩ => show win0_2.index t (0 : Fin 2) * 64 + 1 * k.val = k.val; rw [e20]; omega
    | ⟨1, _⟩ => show win0_2.index t (1 : Fin 2) * 64 + 1 * q.val = q.val; rw [e21]; omega
  · intro k q
    refine Eq.trans ?_ (found_lower m c k q)
    show (V m c main_v11 : S64x64.Idx → EReal) (((cfg0.win 3).blk t).view.emb (ix2 k q)) = _
    refine congrArg _ (funext fun a => Fin.ext ?_)
    match a with
    | ⟨0, _⟩ => show win0_3.index t (0 : Fin 2) * 64 + 1 * k.val = k.val; rw [e30]; omega
    | ⟨1, _⟩ => show win0_3.index t (1 : Fin 2) * 64 + 1 * q.val = q.val; rw [e31]; omega
  · intro q
    refine Eq.trans ?_ (found_bias m c q)
    show (V m c main_v12 : S1x64.Idx → EReal) (((cfg0.win 4).blk t).view.emb (ix2 (0 : Fin 1) q)) = _
    refine congrArg _ (funext fun a => Fin.ext ?_)
    match a with
    | ⟨0, _⟩ => show win0_4.index t (0 : Fin 2) * 1 + 1 * 0 = 0; rw [e40]
    | ⟨1, _⟩ => show win0_4.index t (1 : Fin 2) * 64 + 1 * q.val = q.val; rw [e41]; omega
  · refine congrArg _ (funext fun a => Fin.ext ?_)
    match a with
    | ⟨0, _⟩ => show t.val * 5000 + p.val = win0_5.index t (0 : Fin 2) * 5000 + 1 * p.val; rw [e50]; omega
    | ⟨1, _⟩ => show q.val = win0_5.index t (1 : Fin 2) * 64 + 1 * q.val; rw [e51]; omega

/-- A node is in point `t`'s block of the result iff each of its coordinates is in the block's range. -/
theorem mem_block (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v13).slice (win0_5.rect t)).set ↔ _
  rw [View.set_slice_whole, Rect.mem_set_unit]
  exact Iff.rfl

/-- Every entry of the result lies in the block of some point: node `r` in that of point r / 5000. -/
theorem every_node_covered (i : S100000x64.Idx) :
    ∃ t : Fin cfg0.N, (cfg0.win 5).flush t = true ∧ i ∈ ((cfg0.win 5).blk t).view.set := by
  have hN : cfg0.N = 20 := N_0
  have hi0 : (i 0).val < 100000 := (i 0).isLt
  have hi1 : (i 1).val < 64 := (i 1).isLt
  obtain ⟨t, ht⟩ : ∃ t : Fin cfg0.N, t.val = (i 0).val / 5000 := ⟨⟨(i 0).val / 5000, by omega⟩, rfl⟩
  obtain ⟨-, -, -, -, -, -, -, -, -, -, e50, e51⟩ := block_indices t
  refine ⟨t, flush0_5 t, ?_⟩
  rw [mem_block]
  intro a
  match a with
  | ⟨0, _⟩ =>
    show win0_5.index t (0 : Fin 2) * 5000 ≤ (i 0).val ∧ (i 0).val < win0_5.index t (0 : Fin 2) * 5000 + 5000
    rw [e50, ht]; omega
  | ⟨1, _⟩ =>
    show win0_5.index t (1 : Fin 2) * 64 ≤ (i 1).val ∧ (i 1).val < win0_5.index t (1 : Fin 2) * 64 + 64
    rw [e51]; omega

/-- After the run the result array is the layer of the node features, their neighbourhood sums, the weights and the bias. -/
theorem result_is_layer (c : Dev nD) :
    (dats m 0 c).arrAt 5 cfg0.N
      = layer (m ((c : Thread nD τ).loc main_arg0)) (neighbourSum (m ((c : Thread nD τ).loc main_arg0)) (m ((c : Thread nD τ).loc main_arg2)) (m ((c : Thread nD τ).loc main_arg3))) (m ((c : Thread nD τ).loc main_arg4)) (m ((c : Thread nD τ).loc main_arg5)) := by
  have h := (dats m 0 c).arrAt_eq_of_cover 5 (layer (V m c main_arg0) (V m c (Pipeline.arrRef spec0 1)) (m ((c : Thread nD τ).loc main_arg4)) (m ((c : Thread nD τ).loc main_arg5)))
    (fun t _ => flushed_is_layer m c t) every_node_covered
  rw [h, V_main_arg0, found_sums_operand]

/-- Every weakly fair execution of the kernel's program ends with the result array at the layer of the arguments, the
    arguments unchanged. -/
theorem run : θ_run defs (onTc (τ := τ) (main (F := Ideal))) ⟨m, fun _ => 0, ρ⟩ fun r => ∀ c : Dev nD,
      r.2.mem ((c : Thread nD τ).loc main_v13)
        = layer (m ((c : Thread nD τ).loc main_arg0)) (neighbourSum (m ((c : Thread nD τ).loc main_arg0)) (m ((c : Thread nD τ).loc main_arg2)) (m ((c : Thread nD τ).loc main_arg3))) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (result_is_layer m c), (h c).2⟩) (Value.run_blocks m ρ)

end Cert.KernelIdeal.KernelRun

end
-- ==== Proof.RefLayer.lean ====
/-
  The reference computes the layer.

  The reference lays each node's feature row and its neighbourhood-sum row side by side (a row of 128 entries),
  multiplies by the whole 128 × 64 weight matrix and adds the bias row. Read at node `p` and feature `q`: the joined
  row holds the node's own features on columns 0 … 63 and the neighbourhood sum on columns 64 … 127, so the product is
  the sum of the two half products (`LayerSpec.joined_product`), and the bias laid along the rows reads `b(q)`.
  The neighbourhood sum itself (the gather of source rows and their scatter-add into destination rows) is carried as
  one unopened stage: both programs compute it by the same operations.
-/
import proofs.«180983_j76192719831672_1_alg».proof.Proof.Gen.ReferenceIdeal.Read
import proofs.«180983_j76192719831672_1_alg».proof.Proof.LayerSpec

noncomputable section

namespace Cert.ReferenceIdeal.RefLayer

open Cert.ReferenceIdeal Cert.ReferenceIdeal.Gen Cert.ReferenceIdeal.Read Idealize.ShloMosaic Idealize.ShloMosaic.ValueIdx
open Cert.LayerSpec

/-- The left operand's index of the product at output `i`, contraction coordinate `k`, is (row of `i`, `k`). -/
theorem lidx_eq (i : S100000x64.Idx) (k : Fin 128) : lidx_main_v11 i k = ix2 (i 0) k :=
  funext fun a => by match a with | ⟨0, _⟩ => rfl | ⟨1, _⟩ => rfl

/-- The right operand's index is (`k`, column of `i`). -/
theorem ridx_eq (i : S100000x64.Idx) (k : Fin 128) : ridx_main_v11 i k = ix2 k (i 1) :=
  funext fun a => by match a with | ⟨0, _⟩ => rfl | ⟨1, _⟩ => rfl

/-- The bias, laid first as one row and then down the rows, is read at the column of `i`. -/
theorem bias_idx_eq (i : S100000x64.Idx) : idx_main_v12 (idx_main_v13 i) = ix1 (i 1) :=
  funext fun a => by match a with | ⟨0, _⟩ => rfl

/-- On its first 64 columns the joined row is the node's own feature row. -/
theorem joined_upper (x0 : (⟨S100000x64, .f32⟩ : BufTy).Contents (Elt Ideal)) (x2 x3 : (⟨S1250000, .i32⟩ : BufTy).Contents (Elt Ideal))
    (p : Fin 100000) (k : Fin 64) :
    val_main_v10 (F := Ideal) x0 x2 x3 (ix2 p (upper k)) = x0 (ix2 p k) := by
  unfold val_main_v10
  exact concatenate_pair_apply_left (1 : Fin S100000x128.rank) x0 _ concatenates_S100000x64_S100000x64_S100000x128_d1
    (ix2 p (upper k)) rfl (ix2 p k) (fun b => by match b with | ⟨0, _⟩ => rfl | ⟨1, _⟩ => rfl)

/-- On its last 64 columns it is the neighbourhood sum's row. -/
theorem joined_lower (x0 : (⟨S100000x64, .f32⟩ : BufTy).Contents (Elt Ideal)) (x2 x3 : (⟨S1250000, .i32⟩ : BufTy).Contents (Elt Ideal))
    (p : Fin 100000) (k : Fin 64) :
    val_main_v10 (F := Ideal) x0 x2 x3 (ix2 p (lower k)) = val_main_v9 (F := Ideal) x0 x2 x3 (ix2 p k) := by
  unfold val_main_v10
  exact concatenate_pair_apply_right (1 : Fin S100000x128.rank) x0 _ concatenates_S100000x64_S100000x64_S100000x128_d1
    (ix2 p (lower k)) rfl rfl (ix2 p k)
    (fun b hb => by match b with | ⟨0, _⟩ => rfl | ⟨1, _⟩ => exact absurd rfl hb)
    (by show k.val + 64 = 64 + k.val; omega)

/-- The reference's result is the layer of the node features, the neighbourhood sums (the reference's own
    scatter-add stage), the weights and the bias. -/
theorem result_is_layer (x0 : (⟨S100000x64, .f32⟩ : BufTy).Contents (Elt Ideal)) (x2 x3 : (⟨S1250000, .i32⟩ : BufTy).Contents (Elt Ideal))
    (x4 : (⟨S128x64, .f32⟩ : BufTy).Contents (Elt Ideal)) (x5 : (⟨S64, .f32⟩ : BufTy).Contents (Elt Ideal)) :
    val_main_v14 (F := Ideal) x0 x2 x3 x4 x5 = layer x0 (val_main_v9 (F := Ideal) x0 x2 x3) x4 x5 := by
  funext i
  rw [val_main_v14_apply, val_main_v11_apply, val_main_v13_apply, val_main_v12_apply, bias_idx_eq]
  simp only [lidx_eq, ridx_eq]
  unfold layer
  refine congrArg₂ (· + ·) ?_ rfl
  exact joined_product (fun k => x0 (ix2 (i 0) k)) (fun k => val_main_v9 (F := Ideal) x0 x2 x3 (ix2 (i 0) k))
    (fun k => val_main_v10 (F := Ideal) x0 x2 x3 (ix2 (i 0) k)) (fun k => x4 (ix2 k (i 1)))
    (fun k => joined_upper x0 x2 x3 (i 0) k) (fun k => joined_lower x0 x2 x3 (i 0) k)

end Cert.ReferenceIdeal.RefLayer

end
-- ==== Proof.lean ====
/-
  A graph layer that sums each node's neighbours and applies one linear map, certified against its plain reference.

  Both programs first form, by the same operations, the neighbourhood sums `a`: the feature rows of the edges' sources
  gathered and added into the rows of the edges' destinations. The reference then joins each node's own row `x(p, ·)`
  and its sum `a(p, ·)` into one row of 128 entries, multiplies by the 128 × 64 weight matrix `W` and adds the bias
  `b`. The kernel never forms the joined row: it multiplies `x` by the upper 64 rows of `W` and `a` by the lower 64
  rows, in blocks of 5000 nodes, and adds the two products and the bias. On the extended reals both are
      Σ_{k<64} x(p, k) · W(k, q)  +  Σ_{k<64} a(p, k) · W(64 + k, q)  +  b(q)
  (`LayerSpec.layer`): a sum of 128 terms is the sum of its first and of its last 64, which needs only that addition
  is commutative and associative, so no entry has to be finite and the precondition is never opened.

  The modules: LayerSpec (the value and the law of sums), LibPlainDot (a plain matrix product read at an index),
  KernelLayer (the body's arithmetic at an entry, and what the region finds in its operands), KernelRun (each grid
  point writes a block of the layer, the blocks cover the result), RefLayer (the reference's last stage is the layer).
-/
import proofs.«180983_j76192719831672_1_alg».proof.Defs
import proofs.«180983_j76192719831672_1_alg».proof.Proof.Gen.Kernel
import proofs.«180983_j76192719831672_1_alg».proof.Proof.Gen.Kernel.Skeleton
import proofs.«180983_j76192719831672_1_alg».proof.Proof.Gen.Kernel.Launch
import proofs.«180983_j76192719831672_1_alg».proof.Proof.Gen.Kernel.Points
import proofs.«180983_j76192719831672_1_alg».proof.Proof.Gen.Kernel.Frame
import proofs.«180983_j76192719831672_1_alg».proof.Proof.Gen.KernelIdeal
import proofs.«180983_j76192719831672_1_alg».proof.Proof.Gen.KernelIdeal.Skeleton
import proofs.«180983_j76192719831672_1_alg».proof.Proof.Gen.KernelIdeal.Launch
import proofs.«180983_j76192719831672_1_alg».proof.Proof.Gen.KernelIdeal.Points
import proofs.«180983_j76192719831672_1_alg».proof.Proof.Gen.KernelIdeal.Frame
import proofs.«180983_j76192719831672_1_alg».proof.Proof.Gen.ReferenceIdeal
import proofs.«180983_j76192719831672_1_alg».proof.Proof.Gen.Pre_finite_inputs
import proofs.«180983_j76192719831672_1_alg».proof.Proof.Gen.KernelIdeal.Value
import proofs.«180983_j76192719831672_1_alg».proof.Proof.Gen.ReferenceIdeal.Run
import proofs.«180983_j76192719831672_1_alg».proof.Proof.Gen.ReferenceIdeal.Read
import proofs.«180983_j76192719831672_1_alg».proof.Proof.KernelRun
import proofs.«180983_j76192719831672_1_alg».proof.Proof.RefLayer
import Idealize.ShloMosaic.Adequacy
import Idealize.ShloMosaic.Init

noncomputable section

namespace Cert.Proof

open Idealize.ShloMosaic Idealize.ShloMosaic.TcCoe Idealize.SL.Sem

/-- The word-level kernel runs to the end and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of array operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- The two programs form the neighbourhood sums by the same operations of the same arguments. -/
theorem same_sums (x0 : (⟨Cert.KernelIdeal.S100000x64, .f32⟩ : BufTy).Contents (Elt Ideal))
    (x2 x3 : (⟨Cert.KernelIdeal.S1250000, .i32⟩ : BufTy).Contents (Elt Ideal)) :
    Cert.KernelIdeal.KernelLayer.neighbourSum x0 x2 x3 = Cert.ReferenceIdeal.Read.val_main_v9 (F := Ideal) x0 x2 x3 := rfl

/-- From memories that agree on the arguments both programs end with the layer of the arguments in their result. -/
theorem algebraic : Cert.algebraic_KernelIdeal_ReferenceIdeal := by
  intro m ρ m' ρ' _ hagree
  refine ⟨fun c => Cert.LayerSpec.layer (m ((c.tc : Thread Cert.KernelIdeal.nD Cert.KernelIdeal.τ).loc Cert.KernelIdeal.main_arg0))
      (Cert.KernelIdeal.KernelLayer.neighbourSum (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  beta_reduce
  rw [Cert.ReferenceIdeal.Read.val_main_v14_eq, Cert.ReferenceIdeal.RefLayer.result_is_layer,
    (hagree c).1, (hagree c).2.2.1, (hagree c).2.2.2.1, (hagree c).2.2.2.2.1, (hagree c).2.2.2.2.2, same_sums]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
